-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 28
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S1x1, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S_, .f32⟩
  | .hbm, ⟨3, _⟩ => ⟨S16777216, .f32⟩
  | .hbm, ⟨4, _⟩ => ⟨S16777216, .i1⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S16777216, .i1⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S16777216, .i1⟩
  | .hbm, ⟨16, _⟩ => ⟨S16777216, .i1⟩
  | .hbm, ⟨17, _⟩ => ⟨S_, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S_, .f32⟩
  | .hbm, ⟨23, _⟩ => ⟨S16777216, .i1⟩
  | .hbm, ⟨24, _⟩ => ⟨S16777216, .i1⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_v22 : Ref sig .tc := ⟨.hbm, 42, rfl⟩
abbrev main_cst_10 : Ref sig .tc := ⟨.hbm, 43, rfl⟩
abbrev main_v23 : Ref sig .tc := ⟨.hbm, 44, rfl⟩
abbrev main_v24 : Ref sig .tc := ⟨.hbm, 45, rfl⟩
abbrev main_cst_11 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Terms.lean ====
/-
  The quantities both programs compute, written once.

  For one entry with probability `x` and label `l`, with `pred := x > 1/2` and `pos := l = 1`:
    hit x l   = x      if pred and pos,      else 0     (a true positive's weight)
    alarm x l = x      if pred and not pos,  else 0     (a false positive's weight)
    miss x l  = 1 - x  if not pred and pos,  else 0     (a false negative's weight)
  and from the three totals TP, FP, FN the score
    score = -(2 p r / (p + r)),   p = (TP + e) / ((TP + FP) + e),   r = (TP + e) / ((TP + FN) + e),
  `e` the single-precision word nearest 1e-5, the same word wherever it occurs.  "not" is spelt as exclusive-or with the
  true bit here; on one bit that is the complement.
-/
import Idealize.ShloMosaic.Lib.ValueIdx

noncomputable section

namespace Cert.ConfusionSums

open Idealize.ShloMosaic Idealize.ShloMosaic.ValueIdx

variable {F : FTy → Type} [FloatOps F]

/-- The prediction is positive: the probability exceeds one half. -/
def pred (x : F .f32) : BitVec 1 := FloatOps.cmpf .ogt x (FloatOps.ofBits .f32 0x3F000000#32)

/-- The label is positive: it equals one. -/
def pos (l : BitVec 32) : BitVec 1 := IntOp.cmpi .eq l 1#32

/-- A true positive's weight. -/
def hit (x : F .f32) (l : BitVec 32) : F .f32 :=
  Scalar.select (IntOp.andi (pred x) (pos l)) x (FloatOps.ofBits .f32 0x00000000#32)

/-- A false positive's weight. -/
def alarm (x : F .f32) (l : BitVec 32) : F .f32 :=
  Scalar.select (IntOp.andi (pred x) (IntOp.xori (pos l) 1#1)) x (FloatOps.ofBits .f32 0x00000000#32)

/-- A false negative's weight. -/
def miss (x : F .f32) (l : BitVec 32) : F .f32 :=
  Scalar.select (IntOp.andi (IntOp.xori (pred x) 1#1) (pos l))
    (FloatOps.subf (FloatOps.ofBits .f32 0x3F800000#32) x) (FloatOps.ofBits .f32 0x00000000#32)

/-- On one bit the complement is exclusive-or with the true bit. -/
theorem not_eq_xor_one (b : BitVec 1) : ~~~b = IntOp.xori b 1#1 := by
  revert b; decide

/-- Rank-0 arrays: one entry. -/
abbrev Sc : Shape := ⟨0, ![]⟩

/-- The score from the three totals. -/
def score (tp fp fn : FVec F Sc .f32) : FVec F Sc .f32 :=
  let p := Host.divf (addf tp (constant (F := F) Sc .f32 0x3727C5AC#32))
    (addf (addf tp fp) (constant (F := F) Sc .f32 0x3727C5AC#32))
  let r := Host.divf (addf tp (constant (F := F) Sc .f32 0x3727C5AC#32))
    (addf (addf tp fn) (constant (F := F) Sc .f32 0x3727C5AC#32))
  Host.negf (Host.divf (mulf (mulf (constant (F := F) Sc .f32 0x40000000#32) p) r) (addf p r))

/-- The flat argument arrays: 16777216 entries. -/
abbrev Flat : Shape := ⟨1, ![16777216]⟩

/-- A weight's total over the whole of the two flat arrays, from zero: what each of TP, FP, FN is. -/
def total (w : Ideal .f32 → BitVec 32 → Ideal .f32) (x : Flat.Idx → Ideal .f32) (l : Flat.Idx → BitVec 32) :
    FVec Ideal Sc .f32 :=
  fun _ => Ideal.ofBits .f32 0x00000000#32 + ∑ j : Flat.Idx, w (x j) (l j)

end Cert.ConfusionSums

end
-- ==== Proof.RefValue.lean ====
/-
  The reference's result as a function of its two argument arrays: the score of the three totals.

  Each of its three sums is a select of the probability (or of one minus it) under a mask, reduced over the whole flat
  axis from a zero initial value: entry by entry the selected value is `hit`, `alarm` or `miss` of that entry (the
  reference spells "not" as a complement, which on one bit is exclusive-or with the true bit), so the sum is that
  weight's `total`.  The scalar operations after the sums are the `score`, operation for operation.
-/
import proofs.«133430_j77129022701690_1_alg».proof.Defs
import proofs.«133430_j77129022701690_1_alg».proof.Proof.Gen.ReferenceIdeal.Run
import proofs.«133430_j77129022701690_1_alg».proof.Proof.Gen.ReferenceIdeal.Read
import proofs.«133430_j77129022701690_1_alg».proof.Proof.Terms

noncomputable section

namespace Cert.ReferenceIdeal.RefValue

open Idealize.ShloMosaic Idealize.ShloMosaic.TcCoe Idealize.SL.Sem
open Cert.ReferenceIdeal Cert.ReferenceIdeal.Read Cert.ConfusionSums

variable (x0 : (⟨S16777216, .f32⟩ : BufTy).Contents (Elt Ideal)) (x1 : (⟨S16777216, .i32⟩ : BufTy).Contents (Elt Ideal))

/-- The first sum is the total of the true positives' weights. -/
theorem tp_eq : val_main_v6 (F := Ideal) x0 x1 = total hit x0 x1 := by
  funext i
  rw [val_main_v6_apply]
  rfl

/-- The second sum is the total of the false positives' weights. -/
theorem fp_eq : val_main_v10 (F := Ideal) x0 x1 = total alarm x0 x1 := by
  funext i
  rw [val_main_v10_apply]
  unfold total
  refine congrArg₂ (· + ·) rfl (Finset.sum_congr rfl fun j _ => ?_)
  have e : val_main_v9 (F := Ideal) x0 x1 j
      = Scalar.select (IntOp.andi (pred (F := Ideal) (x0 j)) (~~~(pos (x1 j)))) (x0 j)
          (FloatOps.ofBits (F := Ideal) .f32 0x00000000#32) := rfl
  rw [e, not_eq_xor_one]
  rfl

/-- The third sum is the total of the false negatives' weights. -/
theorem fn_eq : val_main_v16 (F := Ideal) x0 x1 = total miss x0 x1 := by
  funext i
  rw [val_main_v16_apply]
  unfold total
  refine congrArg₂ (· + ·) rfl (Finset.sum_congr rfl fun j _ => ?_)
  have e : val_main_v15 (F := Ideal) x0 x1 j
      = Scalar.select (IntOp.andi (~~~(pred (F := Ideal) (x0 j))) (pos (x1 j)))
          (FloatOps.subf (F := Ideal) (FloatOps.ofBits (F := Ideal) .f32 0x3F800000#32) (x0 j))
          (FloatOps.ofBits (F := Ideal) .f32 0x00000000#32) := rfl
  rw [e, not_eq_xor_one]
  rfl

/-- The reference's result is the score of the three totals. -/
theorem result_eq : val_main_v29 (F := Ideal) x0 x1 = score (total hit x0 x1) (total alarm x0 x1) (total miss x0 x1) := by
  rw [← tp_eq, ← fp_eq, ← fn_eq]
  rfl

end Cert.ReferenceIdeal.RefValue

end
-- ==== Proof.CaseValue.lean ====
/-
  What one grid point leaves in each of the three accumulator buffers, as a value.

  The body has two cases.  At the first point it stores zero into each accumulator, reads that zero back, and stores zero
  plus the block's masked sum.  At every later point it reads what the point before left and stores that plus the block's
  masked sum.  Each accumulator is one entry wide, so the last store covers it and what the buffer ends holding is that
  store's value, with the loads of the two input buffers reading the blocks whole.
-/
import proofs.«133430_j77129022701690_1_alg».proof.Defs
import proofs.«133430_j77129022701690_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

/-- The origin of a rank-2 buffer, as the offsets every load and store here uses. -/
theorem hz : (![0, 0] : Fin 2 → Nat) = fun _ => 0 := funext fun a => by fin_cases a <;> rfl

/-- At the first point the true-positive buffer is reset to zero and the block's sum added to it. -/
theorem first_2 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x128 .f32) (x1 : Vec F S4096x128 .i32) :
    out0_A_2 c i a1 h1 a2 h2 a3 h3 a4 h4 a5 h5 hc x0 x1 = k0_pay1 (k0_pay10 x0 x1) (k0_pay4 (F := F)) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- At a later point the block's sum is added to what the true-positive buffer held. -/
theorem later_2 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x128 .f32) (x1 : Vec F S4096x128 .i32) (xo2 xo3 xo4 : Vec F S1x1 .f32) :
    out0_B_2 c i a1 h1 a2 h2 a3 h3 a4 h4 a5 h5 hc x0 x1 xo2 xo3 xo4 = k0_pay1 (k0_pay10 x0 x1) xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h3.read_unread, View.ld_unit_zero (S := S4096x128) hz,
    View.ld_unit_zero (S := S1x1) hz]

/-- At the first point the false-positive buffer is reset to zero and the block's sum added to it. -/
theorem first_3 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x128 .f32) (x1 : Vec F S4096x128 .i32) :
    out0_A_3 c i a1 h1 a2 h2 a3 h3 a4 h4 a5 h5 hc x0 x1 = k0_pay2 (k0_pay11 x0 x1) (k0_pay5 (F := F)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- At a later point the block's sum is added to what the false-positive buffer held. -/
theorem later_3 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x128 .f32) (x1 : Vec F S4096x128 .i32) (xo2 xo3 xo4 : Vec F S1x1 .f32) :
    out0_B_3 c i a1 h1 a2 h2 a3 h3 a4 h4 a5 h5 hc x0 x1 xo2 xo3 xo4 = k0_pay2 (k0_pay11 x0 x1) xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h4.read_unread, View.ld_unit_zero (S := S4096x128) hz,
    View.ld_unit_zero (S := S1x1) hz]

/-- At the first point the false-negative buffer is reset to zero and the block's sum added to it. -/
theorem first_4 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4096x128 .f32) (x1 : Vec F S4096x128 .i32) :
    out0_A_4 c i a1 h1 a2 h2 a3 h3 a4 h4 a5 h5 hc x0 x1 = k0_pay3 (k0_pay12 x0 x1) (k0_pay6 (F := F)) := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x128) hz]

/-- At a later point the block's sum is added to what the false-negative buffer held. -/
theorem later_4 (c : Dev nD) (i : grid0.Coords) (a1 : Memref sig .tc .vmem S4096x128 .f32) (h1 : a1.IsWhole)
    (a2 : Memref sig .tc .vmem S4096x128 .i32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4096x128 .f32) (x1 : Vec F S4096x128 .i32) (xo2 xo3 xo4 : Vec F S1x1 .f32) :
    out0_B_4 c i a1 h1 a2 h2 a3 h3 a4 h4 a5 h5 hc x0 x1 xo2 xo3 xo4 = k0_pay3 (k0_pay12 x0 x1) xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz]
  simp only [View.readAt_eq_ld, h1.read_unread, h2.read_unread, h5.read_unread, View.ld_unit_zero (S := S4096x128) hz,
    View.ld_unit_zero (S := S1x1) hz]

end Cert.KernelIdeal.CaseValue

end
-- ==== Proof.BlockSum.lean ====
/-
  The masked sum of one block, at the ideal values.

  The body sums a 4096 x 128 block in two steps: each row over its 128 lanes, giving a vector of 4096 row sums, which is
  viewed as a column and summed over its 4096 entries; the one resulting number is viewed as a 1 x 1 block.  A view changes
  no entry (same row-major position), and a sum along one axis from a zero accumulator is the plain sum over that axis, so
  the block's contribution is the double sum over rows and lanes.  The summand at an entry is a select under a mask of
  compares, which entry by entry is the weight `hit`, `alarm` or `miss` of that entry's probability and label.
-/
import proofs.«133430_j77129022701690_1_alg».proof.Defs
import proofs.«133430_j77129022701690_1_alg».proof.Proof.Gen.KernelIdeal.Skeleton
import proofs.«133430_j77129022701690_1_alg».proof.Proof.Terms
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.KernelIdeal.BlockSum

open Cert.KernelIdeal Cert.KernelIdeal.Gen Cert.ConfusionSums

/-- Rows over lanes, then the column of row sums, viewed 1 x 1: the double sum over the block. -/
theorem rows_lanes (g : FVec Ideal S4096x128 .f32) (j : S1x1.Idx) :
    shapeCast S1x1 (multiReduction (F := Ideal) .add [0] S1
        (shapeCast S4096x1 (multiReduction (F := Ideal) .add [1] S4096 g 0x00000000#32 reduces_S4096x128_S4096 (.inl rfl) rfl)
          shapeCasts_S4096_S4096x1) 0x00000000#32 reduces_S4096x1_S1 (.inl rfl) rfl) shapeCasts_S1_S1x1 j
      = ∑ r : Fin 4096, ∑ q : Fin 128, g (ix2 r q) := by
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show (0 : Nat) = (j 0).val * 1 + (j 1).val
    omega
  refine (Ideal.multiReduction_add_single _ 0x00000000#32 reduces_S4096x1_S1 (.inl rfl) rfl (ix1 (0 : Fin 1))).trans ?_
  show ∑ r : Fin 4096, _ = _
  refine Finset.sum_congr rfl fun r _ => ?_
  refine (shapeCast_apply _ shapeCasts_S4096_S4096x1 _ (ix1 r) ?_).trans ?_
  · rw [Shape.rowMajor_val_one, Shape.rowMajor_val_two]
    show r.val = r.val * 1 + 0
    omega
  refine (Ideal.multiReduction_add_single g 0x00000000#32 reduces_S4096x128_S4096 (.inl rfl) rfl (ix1 r)).trans ?_
  show ∑ q : Fin 128, _ = _
  refine Finset.sum_congr rfl fun q _ => ?_
  refine congrArg g (funext fun a => ?_)
  match a with
  | ⟨0, _⟩ => rfl
  | ⟨1, _⟩ => rfl

variable (x : Vec Ideal S4096x128 .f32) (l : Vec Ideal S4096x128 .i32)

/-- The block's true-positive sum. -/
theorem tp (j : S1x1.Idx) : k0_pay10 (F := Ideal) x l j = ∑ r : Fin 4096, ∑ q : Fin 128, hit (x (ix2 r q)) (l (ix2 r q)) := by
  unfold k0_pay10
  refine (rows_lanes _ j).trans ?_
  refine Finset.sum_congr rfl fun r _ => Finset.sum_congr rfl fun q _ => ?_
  unfold k0_pay8 k0_pay9 k0_pay7
  rw [shapeCast_self, shapeCast_self]
  rfl

/-- The block's false-positive sum. -/
theorem fp (j : S1x1.Idx) : k0_pay11 (F := Ideal) x l j = ∑ r : Fin 4096, ∑ q : Fin 128, alarm (x (ix2 r q)) (l (ix2 r q)) := by
  unfold k0_pay11
  refine (rows_lanes _ j).trans ?_
  refine Finset.sum_congr rfl fun r _ => Finset.sum_congr rfl fun q _ => ?_
  unfold k0_pay8 k0_pay9 k0_pay7
  rw [shapeCast_self, shapeCast_self]
  rfl

/-- The block's false-negative sum. -/
theorem fn (j : S1x1.Idx) : k0_pay12 (F := Ideal) x l j = ∑ r : Fin 4096, ∑ q : Fin 128, miss (x (ix2 r q)) (l (ix2 r q)) := by
  unfold k0_pay12
  refine (rows_lanes _ j).trans ?_
  refine Finset.sum_congr rfl fun r _ => Finset.sum_congr rfl fun q _ => ?_
  unfold k0_pay8 k0_pay9 k0_pay7
  rw [shapeCast_self, shapeCast_self]
  rfl

end Cert.KernelIdeal.BlockSum

end
-- ==== Proof.Regroup.lean ====
/-
  Regrouping a sum over one flat axis of 16777216 = 32 * 4096 * 128 entries as a sum over 32 blocks, the 4096 rows of a
  block and the 128 lanes of a row.  Entry (t, r, l) sits at the flat position (4096 t + r) * 128 + l: row-major order of
  the array seen as 131072 rows of 128 lanes, the rows cut into 32 consecutive blocks.  The map is a bijection (quotient
  and remainder by 128, then by 4096), so in any commutative monoid the two sums agree; no finiteness is involved.
-/
import Idealize.ShloMosaic.Lib.ValueIdx

noncomputable section

namespace Cert.ConfusionSums

open Idealize.ShloMosaic Idealize.ShloMosaic.ValueIdx

/-- The flat position of lane `l` of row `r` of block `t`. -/
def flat (t : Fin 32) (r : Fin 4096) (l : Fin 128) : Fin 16777216 :=
  ⟨(4096 * t.val + r.val) * 128 + l.val, by have := t.isLt; have := r.isLt; have := l.isLt; omega⟩

theorem flat_val (t : Fin 32) (r : Fin 4096) (l : Fin 128) : (flat t r l).val = (4096 * t.val + r.val) * 128 + l.val := rfl

/-- Block, row and lane of a flat position, and back: a bijection. -/
def flatEquiv : Fin 32 × Fin 4096 × Fin 128 ≃ (⟨1, ![16777216]⟩ : Shape).Idx where
  toFun p := ix1 (flat p.1 p.2.1 p.2.2)
  invFun j := (⟨(j 0).val / 524288, by have h : (j 0).val < 16777216 := (j 0).isLt; omega⟩, ⟨(j 0).val / 128 % 4096, by omega⟩, ⟨(j 0).val % 128, by omega⟩)
  left_inv p := by
    obtain ⟨t, r, l⟩ := p
    have := t.isLt; have := r.isLt; have := l.isLt
    refine Prod.ext (Fin.ext ?_) (Prod.ext (Fin.ext ?_) (Fin.ext ?_))
    · show ((4096 * t.val + r.val) * 128 + l.val) / 524288 = t.val; omega
    · show ((4096 * t.val + r.val) * 128 + l.val) / 128 % 4096 = r.val; omega
    · show ((4096 * t.val + r.val) * 128 + l.val) % 128 = l.val; omega
  right_inv j := by
    have h : (j 0).val < 16777216 := (j 0).isLt
    funext d
    match d with
    | ⟨0, _⟩ =>
      apply Fin.ext
      show (4096 * ((j 0).val / 524288) + (j 0).val / 128 % 4096) * 128 + (j 0).val % 128 = (j 0).val
      omega

/-- A sum over the flat axis is the sum over blocks of the sum over rows of the sum over lanes. -/
theorem sum_flat {M : Type*} [AddCommMonoid M] (f : (⟨1, ![16777216]⟩ : Shape).Idx → M) :
    ∑ i, f i = ∑ t : Fin 32, ∑ r : Fin 4096, ∑ l : Fin 128, f (ix1 (flat t r l)) := by
  rw [← Fintype.sum_equiv flatEquiv (fun p => f (ix1 (flat p.1 p.2.1 p.2.2))) f (fun _ => rfl)]
  rw [Fintype.sum_prod_type]
  refine Finset.sum_congr rfl fun t _ => ?_
  rw [Fintype.sum_prod_type]

end Cert.ConfusionSums

end
-- ==== Proof.BlockRead.lean ====
/-
  An entry of an input block, as an entry of the flat argument array.

  Before the kernel runs, each flat argument of 16777216 entries is viewed as 131072 rows of 128 lanes (same row-major
  position).  Grid point `t` is handed rows 4096 t .. 4096 t + 4095 of that view, all 128 lanes.  So lane `q` of row `r` of the
  block at point `t` is the flat entry at position (4096 t + r) * 128 + q.
-/
import proofs.«133430_j77129022701690_1_alg».proof.Defs
import proofs.«133430_j77129022701690_1_alg».proof.Proof.Gen.KernelIdeal.Frame
import proofs.«133430_j77129022701690_1_alg».proof.Proof.Regroup
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.BlockRead

open Cert.KernelIdeal Cert.KernelIdeal.Gen Cert.ConfusionSums

variable {F : FTy → Type} [FloatOps F]
variable (m : (ℓ : Loc nD τ sig) → Buf (Elt F) ℓ)

/-- A grid point as a number below 32. -/
def pt (t : Fin cfg0.N) : Fin 32 := ⟨t.val, lt_of_lt_of_eq t.isLt N_0⟩

/-- The kernel's first input array is the probabilities viewed as rows of lanes. -/
theorem probs_rows (c : Dev nD) :
    (V m c main_v0 : S131072x128.Idx → Elt F .f32)
      = shapeCast S131072x128 (m ((c : Thread nD τ).loc main_arg0)) shapeCasts_S16777216_S131072x128 := by
  show StableHlo.after hostOps0 (fun b => m (c, b)) (Proc.devRef .tc main_v0) = _
  after_results
  rfl

/-- The kernel's second input array is the labels viewed as rows of lanes. -/
theorem labels_rows (c : Dev nD) :
    (V m c main_v1 : S131072x128.Idx → Elt F .i32)
      = shapeCast S131072x128 (m ((c : Thread nD τ).loc main_arg1)) shapeCasts_S16777216_S131072x128 := by
  show StableHlo.after hostOps0 (fun b => m (c, b)) (Proc.devRef .tc main_v1) = _
  after_results
  rfl

/-- Where each input window's block sits: block row `t`, block column 0. -/
theorem block_at : ∀ t : Fin cfg0.N, win0_0.index t 0 = t.val ∧ win0_0.index t 1 = 0 ∧ win0_1.index t 0 = t.val ∧ win0_1.index t 1 = 0 :=
  (by decide +kernel : ∀ t : Fin grid0.N, _)

/-- An entry of the probabilities' block at point `t`. -/
theorem probs_apply (c : Dev nD) (t : Fin cfg0.N) (r : Fin 4096) (q : Fin 128) :
    (iblk m c 0 t : Vec F S4096x128 .f32) (ix2 r q) = m ((c : Thread nD τ).loc main_arg0) (ix1 (flat (pt t) r q)) := by
  unfold iblk
  rw [View.read_apply]
  show V m c main_v0 _ = _
  refine (congrFun (probs_rows m c) _).trans ?_
  refine shapeCast_apply _ _ _ (ix1 (flat (pt t) r q)) ?_
  rw [Shape.rowMajor_val_one, Shape.rowMajor_val_two]
  have hb := block_at t
  show (4096 * t.val + r.val) * 128 + q.val
    = (win0_0.index t 0 * 4096 + 1 * r.val) * 128 + (win0_0.index t 1 * 128 + 1 * q.val)
  rw [hb.1, hb.2.1]
  omega

/-- An entry of the labels' block at point `t`. -/
theorem labels_apply (c : Dev nD) (t : Fin cfg0.N) (r : Fin 4096) (q : Fin 128) :
    (iblk m c 1 t : Vec F S4096x128 .i32) (ix2 r q) = m ((c : Thread nD τ).loc main_arg1) (ix1 (flat (pt t) r q)) := by
  unfold iblk
  rw [View.read_apply]
  show V m c main_v1 _ = _
  refine (congrFun (labels_rows m c) _).trans ?_
  refine shapeCast_apply _ _ _ (ix1 (flat (pt t) r q)) ?_
  rw [Shape.rowMajor_val_one, Shape.rowMajor_val_two]
  have hb := block_at t
  show (4096 * t.val + r.val) * 128 + q.val
    = (win0_1.index t 0 * 4096 + 1 * r.val) * 128 + (win0_1.index t 1 * 128 + 1 * q.val)
  rw [hb.2.2.1, hb.2.2.2]
  omega

end Cert.KernelIdeal.BlockRead

end
-- ==== Proof.Running.lean ====
/-
  The three accumulators after each grid point, and after the last one.

  Write part(t) for a weight's double sum over the rows and lanes of block `t` of the two flat argument arrays.  The first
  point leaves 0 + part(0) in an accumulator; every later point adds its own part to what the point before left.  By
  induction on the point, after point `n` the accumulator holds 0 + (part(0) + ... + part(n)).  After the last point, 31,
  that is 0 plus the sum of all 32 parts, which is the sum over every flat entry (blocks, rows and lanes enumerate the
  flat positions exactly once): the weight's `total`.  Only commutativity and associativity of addition are used.
-/
import proofs.«133430_j77129022701690_1_alg».proof.Defs
import proofs.«133430_j77129022701690_1_alg».proof.Proof.Gen.KernelIdeal.Frame
import proofs.«133430_j77129022701690_1_alg».proof.Proof.CaseValue
import proofs.«133430_j77129022701690_1_alg».proof.Proof.BlockSum
import proofs.«133430_j77129022701690_1_alg».proof.Proof.BlockRead
import proofs.«133430_j77129022701690_1_alg».proof.Proof.Regroup
import proofs.«133430_j77129022701690_1_alg».proof.Proof.Terms

noncomputable section

open Idealize.ShloMosaic Idealize.ShloMosaic.TcCoe Idealize.SL.Sem Idealize.ShloMosaic.ValueIdx

namespace Cert.KernelIdeal.Running

open Cert.KernelIdeal Cert.KernelIdeal.Gen Cert.ConfusionSums Cert.KernelIdeal.BlockRead

variable (m : (ℓ : Loc nD τ sig) → Buf (Elt Ideal) ℓ)

/-- A weight's sum over the rows and lanes of block `t` of the flat argument arrays. -/
def part (w : Ideal .f32 → BitVec 32 → Ideal .f32) (c : Dev nD) (t : Fin 32) : EReal :=
  ∑ r : Fin 4096, ∑ q : Fin 128,
    w (m ((c : Thread nD τ).loc main_arg0) (ix1 (flat t r q))) (m ((c : Thread nD τ).loc main_arg1) (ix1 (flat t r q)))

/-- The same as a function of a natural number, zero past the grid. -/
def partAt (w : Ideal .f32 → BitVec 32 → Ideal .f32) (c : Dev nD) (s : ℕ) : EReal :=
  if h : s < 32 then part m w c ⟨s, h⟩ else 0

theorem partAt_lt (w : Ideal .f32 → BitVec 32 → Ideal .f32) (c : Dev nD) (s : ℕ) (h : s < 32) :
    partAt m w c s = part m w c ⟨s, h⟩ := dif_pos h

/-- Zero plus the parts of blocks 0 .. n. -/
def upto (w : Ideal .f32 → BitVec 32 → Ideal .f32) (c : Dev nD) (n : ℕ) : EReal :=
  Ideal.ofBits .f32 0x00000000#32 + ∑ s ∈ Finset.range (n + 1), partAt m w c s

/-- The double sum over the entries of the two blocks handed to point `t` is block `t`'s part. -/
theorem part_eq (w : Ideal .f32 → BitVec 32 → Ideal .f32) (c : Dev nD) (t : Fin cfg0.N) :
    (∑ r : Fin 4096, ∑ q : Fin 128, w ((iblk m c 0 t : Vec Ideal S4096x128 .f32) (ix2 r q)) ((iblk m c 1 t : Vec Ideal S4096x128 .i32) (ix2 r q)))
      = part m w c (pt t) := by
  unfold part
  refine Finset.sum_congr rfl fun r _ => Finset.sum_congr rfl fun q _ => ?_
  rw [probs_apply m c t r q, labels_apply m c t r q]

/-- Adding a block's true-positive sum to an old value, read at the accumulator's one entry. -/
theorem add_tp (x : Vec Ideal S4096x128 .f32) (l : Vec Ideal S4096x128 .i32) (old : Vec Ideal S1x1 .f32) (j : S1x1.Idx) :
    k0_pay1 (F := Ideal) (k0_pay10 x l) old j = old j + ∑ r : Fin 4096, ∑ q : Fin 128, hit (x (ix2 r q)) (l (ix2 r q)) := by
  unfold k0_pay1
  rw [shapeCast_self]
  exact congrArg (old j + ·) (BlockSum.tp x l j)

/-- The first point leaves zero plus the first block's true-positive part. -/
theorem first_tp (c : Dev nD) (t : Fin cfg0.N) (h0 : t.val % 32 = 0) (j : S1x1.Idx) :
    (outsAt0 m c t.val t.isLt).1 j = Ideal.ofBits .f32 0x00000000#32 + part m hit c (pt t) := by
  rw [outsAt0_A m c t h0]
  dsimp only
  refine (congrFun (CaseValue.first_2 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t)) j).trans ?_
  refine (add_tp (iblk m c 0 t) (iblk m c 1 t) (k0_pay4 (F := Ideal)) j).trans ?_
  exact congrArg (Ideal.ofBits .f32 0x00000000#32 + ·) (part_eq m hit c t)

/-- A later point leaves what the point before left plus its own block's true-positive part. -/
theorem later_tp (c : Dev nD) (t : Fin cfg0.N) (h0 : ¬t.val % 32 = 0) (j : S1x1.Idx) :
    (outsAt0 m c t.val t.isLt).1 j = (outsAt0 m c (t.val - 1) (Nat.lt_of_le_of_lt (Nat.sub_le _ _) t.isLt)).1 j + part m hit c (pt t) := by
  rw [outsAt0_B m c t h0]
  dsimp only
  refine (congrFun (CaseValue.later_2 (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) j).trans ?_
  refine (add_tp (iblk m c 0 t) (iblk m c 1 t) _ j).trans ?_
  exact congrArg ((outsAt0 m c (t.val - 1) (Nat.lt_of_le_of_lt (Nat.sub_le _ _) t.isLt)).1 j + ·) (part_eq m hit c t)

/-- After point `n` the true-positive accumulator holds zero plus the parts of blocks 0 .. n. -/
theorem upto_tp (c : Dev nD) : ∀ (n : ℕ) (h : n < cfg0.N) (j : S1x1.Idx), (outsAt0 m c n h).1 j = upto m hit c n
  | 0, h, j => by
    refine (first_tp m c ⟨0, h⟩ rfl j).trans ?_
    unfold upto
    rw [Finset.sum_range_one, partAt_lt m hit c 0 (lt_of_lt_of_eq h N_0)]
    rfl
  | n + 1, h, j => by
    have hN : n + 1 < 32 := lt_of_lt_of_eq h N_0
    have hB : ¬(⟨n + 1, h⟩ : Fin cfg0.N).val % 32 = 0 := by dsimp only; omega
    refine (later_tp m c ⟨n + 1, h⟩ hB j).trans ?_
    show (outsAt0 m c n _).1 j + part m hit c (pt ⟨n + 1, h⟩) = upto m hit c (n + 1)
    rw [upto_tp c n _ j]
    unfold upto
    rw [Finset.sum_range_succ _ (n + 1), partAt_lt m hit c (n + 1) hN, add_assoc]
    rfl

/-- Adding a block's false-positive sum to an old value, read at the accumulator's one entry. -/
theorem add_fp (x : Vec Ideal S4096x128 .f32) (l : Vec Ideal S4096x128 .i32) (old : Vec Ideal S1x1 .f32) (j : S1x1.Idx) :
    k0_pay2 (F := Ideal) (k0_pay11 x l) old j = old j + ∑ r : Fin 4096, ∑ q : Fin 128, alarm (x (ix2 r q)) (l (ix2 r q)) := by
  unfold k0_pay2
  rw [shapeCast_self]
  exact congrArg (old j + ·) (BlockSum.fp x l j)

/-- The first point leaves zero plus the first block's false-positive part. -/
theorem first_fp (c : Dev nD) (t : Fin cfg0.N) (h0 : t.val % 32 = 0) (j : S1x1.Idx) :
    (outsAt0 m c t.val t.isLt).2.1 j = Ideal.ofBits .f32 0x00000000#32 + part m alarm c (pt t) := by
  rw [outsAt0_A m c t h0]
  dsimp only
  refine (congrFun (CaseValue.first_3 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t)) j).trans ?_
  refine (add_fp (iblk m c 0 t) (iblk m c 1 t) (k0_pay5 (F := Ideal)) j).trans ?_
  exact congrArg (Ideal.ofBits .f32 0x00000000#32 + ·) (part_eq m alarm c t)

/-- A later point leaves what the point before left plus its own block's false-positive part. -/
theorem later_fp (c : Dev nD) (t : Fin cfg0.N) (h0 : ¬t.val % 32 = 0) (j : S1x1.Idx) :
    (outsAt0 m c t.val t.isLt).2.1 j = (outsAt0 m c (t.val - 1) (Nat.lt_of_le_of_lt (Nat.sub_le _ _) t.isLt)).2.1 j + part m alarm c (pt t) := by
  rw [outsAt0_B m c t h0]
  dsimp only
  refine (congrFun (CaseValue.later_3 (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) j).trans ?_
  refine (add_fp (iblk m c 0 t) (iblk m c 1 t) _ j).trans ?_
  exact congrArg ((outsAt0 m c (t.val - 1) (Nat.lt_of_le_of_lt (Nat.sub_le _ _) t.isLt)).2.1 j + ·) (part_eq m alarm c t)

/-- After point `n` the false-positive accumulator holds zero plus the parts of blocks 0 .. n. -/
theorem upto_fp (c : Dev nD) : ∀ (n : ℕ) (h : n < cfg0.N) (j : S1x1.Idx), (outsAt0 m c n h).2.1 j = upto m alarm c n
  | 0, h, j => by
    refine (first_fp m c ⟨0, h⟩ rfl j).trans ?_
    unfold upto
    rw [Finset.sum_range_one, partAt_lt m alarm c 0 (lt_of_lt_of_eq h N_0)]
    rfl
  | n + 1, h, j => by
    have hN : n + 1 < 32 := lt_of_lt_of_eq h N_0
    have hB : ¬(⟨n + 1, h⟩ : Fin cfg0.N).val % 32 = 0 := by dsimp only; omega
    refine (later_fp m c ⟨n + 1, h⟩ hB j).trans ?_
    show (outsAt0 m c n _).2.1 j + part m alarm c (pt ⟨n + 1, h⟩) = upto m alarm c (n + 1)
    rw [upto_fp c n _ j]
    unfold upto
    rw [Finset.sum_range_succ _ (n + 1), partAt_lt m alarm c (n + 1) hN, add_assoc]
    rfl

/-- Adding a block's false-negative sum to an old value, read at the accumulator's one entry. -/
theorem add_fn (x : Vec Ideal S4096x128 .f32) (l : Vec Ideal S4096x128 .i32) (old : Vec Ideal S1x1 .f32) (j : S1x1.Idx) :
    k0_pay3 (F := Ideal) (k0_pay12 x l) old j = old j + ∑ r : Fin 4096, ∑ q : Fin 128, miss (x (ix2 r q)) (l (ix2 r q)) := by
  unfold k0_pay3
  rw [shapeCast_self]
  exact congrArg (old j + ·) (BlockSum.fn x l j)

/-- The first point leaves zero plus the first block's false-negative part. -/
theorem first_fn (c : Dev nD) (t : Fin cfg0.N) (h0 : t.val % 32 = 0) (j : S1x1.Idx) :
    (outsAt0 m c t.val t.isLt).2.2 j = Ideal.ofBits .f32 0x00000000#32 + part m miss c (pt t) := by
  rw [outsAt0_A m c t h0]
  dsimp only
  refine (congrFun (CaseValue.first_4 (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t)) j).trans ?_
  refine (add_fn (iblk m c 0 t) (iblk m c 1 t) (k0_pay6 (F := Ideal)) j).trans ?_
  exact congrArg (Ideal.ofBits .f32 0x00000000#32 + ·) (part_eq m miss c t)

/-- A later point leaves what the point before left plus its own block's false-negative part. -/
theorem later_fn (c : Dev nD) (t : Fin cfg0.N) (h0 : ¬t.val % 32 = 0) (j : S1x1.Idx) :
    (outsAt0 m c t.val t.isLt).2.2 j = (outsAt0 m c (t.val - 1) (Nat.lt_of_le_of_lt (Nat.sub_le _ _) t.isLt)).2.2 j + part m miss c (pt t) := by
  rw [outsAt0_B m c t h0]
  dsimp only
  refine (congrFun (CaseValue.later_4 (F := Ideal) c (grid0.coords t) (ms0_0 t) (hs0_0 t) (ms0_1 t) (hs0_1 t) (ms0_2 t) (hs0_2 t) (ms0_3 t) (hs0_3 t)
      (ms0_4 t) (hs0_4 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) j).trans ?_
  refine (add_fn (iblk m c 0 t) (iblk m c 1 t) _ j).trans ?_
  exact congrArg ((outsAt0 m c (t.val - 1) (Nat.lt_of_le_of_lt (Nat.sub_le _ _) t.isLt)).2.2 j + ·) (part_eq m miss c t)

/-- After point `n` the false-negative accumulator holds zero plus the parts of blocks 0 .. n. -/
theorem upto_fn (c : Dev nD) : ∀ (n : ℕ) (h : n < cfg0.N) (j : S1x1.Idx), (outsAt0 m c n h).2.2 j = upto m miss c n
  | 0, h, j => by
    refine (first_fn m c ⟨0, h⟩ rfl j).trans ?_
    unfold upto
    rw [Finset.sum_range_one, partAt_lt m miss c 0 (lt_of_lt_of_eq h N_0)]
    rfl
  | n + 1, h, j => by
    have hN : n + 1 < 32 := lt_of_lt_of_eq h N_0
    have hB : ¬(⟨n + 1, h⟩ : Fin cfg0.N).val % 32 = 0 := by dsimp only; omega
    refine (later_fn m c ⟨n + 1, h⟩ hB j).trans ?_
    show (outsAt0 m c n _).2.2 j + part m miss c (pt ⟨n + 1, h⟩) = upto m miss c (n + 1)
    rw [upto_fn c n _ j]
    unfold upto
    rw [Finset.sum_range_succ _ (n + 1), partAt_lt m miss c (n + 1) hN, add_assoc]
    rfl

/-- Zero plus all 32 parts is the weight's total over the flat arrays. -/
theorem upto_last (w : Ideal .f32 → BitVec 32 → Ideal .f32) (c : Dev nD) (i : Sc.Idx) :
    upto m w c 31 = total w (m ((c : Thread nD τ).loc main_arg0)) (m ((c : Thread nD τ).loc main_arg1)) i := by
  unfold upto total
  refine congrArg (Ideal.ofBits .f32 0x00000000#32 + ·) ?_
  rw [sum_flat, Finset.sum_range]
  refine Finset.sum_congr rfl fun t _ => ?_
  rw [partAt_lt m w c t.val t.isLt]
  rfl

end Cert.KernelIdeal.Running

end
-- ==== Proof.Final.lean ====
/-
  What the kernel's program returns: the score of the three totals.

  Each accumulator's 1 x 1 array is written back once, after the last grid point, and that one block is the whole array; by
  then the accumulator holds its weight's total over the flat arrays.  The operations after the kernel view the three
  1 x 1 arrays as scalars and apply the score's operations, one for one.
-/
import proofs.«133430_j77129022701690_1_alg».proof.Defs
import proofs.«133430_j77129022701690_1_alg».proof.Proof.Gen.KernelIdeal.Frame
import proofs.«133430_j77129022701690_1_alg».proof.Proof.Running
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.ConfusionSums Cert.KernelIdeal.Running

variable (m : (ℓ : Loc nD τ sig) → Buf (Elt Ideal) ℓ) (ρ : Dev nD → PrngReg)

/-- The last grid point. -/
def last : Fin cfg0.N := ⟨31, by rw [show cfg0.N = 32 from N_0]; decide⟩

/-- A weight's total over core `c`'s two argument arrays, as a scalar array. -/
abbrev tot (w : Ideal .f32 → BitVec 32 → Ideal .f32) (c : Dev nD) : FVec Ideal Sc .f32 :=
  total w (m ((c : Thread nD τ).loc main_arg0)) (m ((c : Thread nD τ).loc main_arg1))

/-- The same as the contents of a 1 x 1 array. -/
def held (w : Ideal .f32 → BitVec 32 → Ideal .f32) (c : Dev nD) : S1x1.Idx → Ideal .f32 := fun _ => tot m w c ix0

/-- The one write-back of the true-positive accumulator, after the last point, writes the total. -/
theorem flushed_tp (c : Dev nD) (t : Fin cfg0.N) (hf : (cfg0.win 2).flush t = true) :
    (dats m 0 c).flushed 2 t = ((cfg0.win 2).blk t).view.read (Elt Ideal) (held m hit c) := by
  have hN : cfg0.N = 32 := N_0
  have h31 : t.val = 31 := by have := (flush0_2 t).mp hf; have := t.isLt; omega
  obtain rfl : t = last := Fin.ext h31
  show (cfg0.win 2).cut (grid0.coords last) ((dats m 0 c).after 2 last) = _
  rw [after0_2]
  have e : (outsAt0 m c last.val last.isLt).1 = held m hit c :=
    funext fun j => (upto_tp m c 31 last.isLt j).trans (upto_last m hit c ix0)
  rw [e]
  have hz' : (fun a => win0_2.index last a * main_v2_0.ty.shape.size a) = fun _ => 0 := funext fun a => by fin_cases a <;> decide
  exact (Memref.read_access_unit_zero (Elt Ideal) main_v2_0 hz' (fun a => by rw [congrFun hz' a]; simp) (held m hit c)).symm

/-- So the true-positive array ends holding the total: its one entry is inside the block written back after the last point. -/
theorem final_tp (c : Dev nD) : (dats m 0 c).arrAt 2 cfg0.N = held m hit c :=
  (dats m 0 c).arrAt_eq_of_cover 2 (held m hit c) (flushed_tp m c) fun i =>
    ⟨last, (flush0_2 last).mpr rfl, by
      show i ∈ ((View.whole main_v2_0).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index last 0 * win0_2.size 0 ≤ (i 0 : Nat) ∧ (i 0 : Nat) < win0_2.index last 0 * win0_2.size 0 + win0_2.xsize (grid0.coords last) 0
        rw [show win0_2.index last 0 * win0_2.size 0 = 0 from by decide +kernel, show win0_2.xsize (grid0.coords last) 0 = 1 from by decide +kernel]; omega
      | ⟨1, _⟩ =>
        show win0_2.index last 1 * win0_2.size 1 ≤ (i 1 : Nat) ∧ (i 1 : Nat) < win0_2.index last 1 * win0_2.size 1 + win0_2.xsize (grid0.coords last) 1
        rw [show win0_2.index last 1 * win0_2.size 1 = 0 from by decide +kernel, show win0_2.xsize (grid0.coords last) 1 = 1 from by decide +kernel]; omega⟩

/-- The one write-back of the false-positive accumulator, after the last point, writes the total. -/
theorem flushed_fp (c : Dev nD) (t : Fin cfg0.N) (hf : (cfg0.win 3).flush t = true) :
    (dats m 0 c).flushed 3 t = ((cfg0.win 3).blk t).view.read (Elt Ideal) (held m alarm c) := by
  have hN : cfg0.N = 32 := N_0
  have h31 : t.val = 31 := by have := (flush0_3 t).mp hf; have := t.isLt; omega
  obtain rfl : t = last := Fin.ext h31
  show (cfg0.win 3).cut (grid0.coords last) ((dats m 0 c).after 3 last) = _
  rw [after0_3]
  have e : (outsAt0 m c last.val last.isLt).2.1 = held m alarm c :=
    funext fun j => (upto_fp m c 31 last.isLt j).trans (upto_last m alarm c ix0)
  rw [e]
  have hz' : (fun a => win0_3.index last a * main_v2_1.ty.shape.size a) = fun _ => 0 := funext fun a => by fin_cases a <;> decide
  exact (Memref.read_access_unit_zero (Elt Ideal) main_v2_1 hz' (fun a => by rw [congrFun hz' a]; simp) (held m alarm c)).symm

/-- So the false-positive array ends holding the total: its one entry is inside the block written back after the last point. -/
theorem final_fp (c : Dev nD) : (dats m 0 c).arrAt 3 cfg0.N = held m alarm c :=
  (dats m 0 c).arrAt_eq_of_cover 3 (held m alarm c) (flushed_fp m c) fun i =>
    ⟨last, (flush0_3 last).mpr rfl, by
      show i ∈ ((View.whole main_v2_1).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 1 from by decide +kernel]; omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 1 from by decide +kernel]; omega⟩

/-- The one write-back of the false-negative accumulator, after the last point, writes the total. -/
theorem flushed_fn (c : Dev nD) (t : Fin cfg0.N) (hf : (cfg0.win 4).flush t = true) :
    (dats m 0 c).flushed 4 t = ((cfg0.win 4).blk t).view.read (Elt Ideal) (held m miss c) := by
  have hN : cfg0.N = 32 := N_0
  have h31 : t.val = 31 := by have := (flush0_4 t).mp hf; have := t.isLt; omega
  obtain rfl : t = last := Fin.ext h31
  show (cfg0.win 4).cut (grid0.coords last) ((dats m 0 c).after 4 last) = _
  rw [after0_4]
  have e : (outsAt0 m c last.val last.isLt).2.2 = held m miss c :=
    funext fun j => (upto_fn m c 31 last.isLt j).trans (upto_last m miss c ix0)
  rw [e]
  have hz' : (fun a => win0_4.index last a * main_v2_2.ty.shape.size a) = fun _ => 0 := funext fun a => by fin_cases a <;> decide
  exact (Memref.read_access_unit_zero (Elt Ideal) main_v2_2 hz' (fun a => by rw [congrFun hz' a]; simp) (held m miss c)).symm

/-- So the false-negative array ends holding the total: its one entry is inside the block written back after the last point. -/
theorem final_fn (c : Dev nD) : (dats m 0 c).arrAt 4 cfg0.N = held m miss c :=
  (dats m 0 c).arrAt_eq_of_cover 4 (held m miss c) (flushed_fn m c) fun i =>
    ⟨last, (flush0_4 last).mpr rfl, by
      show i ∈ ((View.whole main_v2_2).slice (win0_4.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index last 0 * win0_4.size 0 ≤ (i 0 : Nat) ∧ (i 0 : Nat) < win0_4.index last 0 * win0_4.size 0 + win0_4.xsize (grid0.coords last) 0
        rw [show win0_4.index last 0 * win0_4.size 0 = 0 from by decide +kernel, show win0_4.xsize (grid0.coords last) 0 = 1 from by decide +kernel]; omega
      | ⟨1, _⟩ =>
        show win0_4.index last 1 * win0_4.size 1 ≤ (i 1 : Nat) ∧ (i 1 : Nat) < win0_4.index last 1 * win0_4.size 1 + win0_4.xsize (grid0.coords last) 1
        rw [show win0_4.index last 1 * win0_4.size 1 = 0 from by decide +kernel, show win0_4.xsize (grid0.coords last) 1 = 1 from by decide +kernel]; omega⟩

/-- The operations after the kernel leave the score of the three totals in the result. -/
theorem tail_eq (c : Dev nD) :
    Pipeline.afterTail₀ cfgs (dats m) 0 (V0 m) [hostOps1] c main_v18 = score (tot m hit c) (tot m alarm c) (tot m miss c) := by
  unfold Pipeline.afterTail₀
  show StableHlo.after hostOps1 _ (Proc.devRef .tc main_v18) = _
  after_results_simp
  have e2 : Pipeline.withArrays (cfgs 0).spec c (V0 m c) (fun w => (dats m 0 c).arrAt w (cfgs 0).N) (Proc.devRef .tc main_v2_0)
      = held m hit c := (Pipeline.withArrays_arr spec0 launch0.win.arr_inj c _ _ 2).trans (final_tp m c)
  have e3 : Pipeline.withArrays (cfgs 0).spec c (V0 m c) (fun w => (dats m 0 c).arrAt w (cfgs 0).N) (Proc.devRef .tc main_v2_1)
      = held m alarm c := (Pipeline.withArrays_arr spec0 launch0.win.arr_inj c _ _ 3).trans (final_fp m c)
  have e4 : Pipeline.withArrays (cfgs 0).spec c (V0 m c) (fun w => (dats m 0 c).arrAt w (cfgs 0).N) (Proc.devRef .tc main_v2_2)
      = held m miss c := (Pipeline.withArrays_arr spec0 launch0.win.arr_inj c _ _ 4).trans (final_fn m c)
  rw [e2, e3, e4]
  rfl

/-- The kernel's program, run: the result holds the score of the three totals, the arguments are unchanged. -/
theorem run : θ_run defs (onTc (τ := τ) (main (F := Ideal))) ⟨m, fun _ => 0, ρ⟩ fun r => ∀ c : Dev nD,
      r.2.mem ((c.tc : Thread nD τ).loc main_v18) = score (tot m hit c) (tot m alarm c) (tot m miss c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.lean ====
/-
  The negated F1 score of a soft confusion matrix: the kernel against its reference, over the extended reals.

  Both programs take 16777216 probabilities and labels.  An entry is predicted positive when its probability exceeds one
  half and is positive when its label is one.  TP sums the probabilities of the entries that are both; FP those predicted
  positive but not positive; FN sums one minus the probability of the positive entries not predicted positive.  The result
  is -(2 p r / (p + r)) with p = (TP + e) / ((TP + FP) + e) and r = (TP + e) / ((TP + FN) + e).

  The reference forms each total as one sum over the flat array from zero.  The kernel views the arrays as 131072 rows of
  128 lanes and walks 32 blocks of 4096 rows: at the first block it sets three one-entry accumulators to zero, at every
  block it adds the block's three masked sums (each row over its lanes, then the column of row sums), and after the last
  block the accumulators are written out and the same scalar formula applied.  Entry by entry the masked values are the
  same on both sides (the reference's complement of a one-bit mask is the kernel's exclusive-or with the true bit), and
  the blocks, rows and lanes enumerate the flat positions exactly once, so each accumulator ends at the reference's
  total: sums over the extended reals may be regrouped freely, addition being commutative and associative there, and the
  finiteness of the inputs is not needed.  Equal totals give equal scores, the scalar operations being the same.

  The three frames: the kernel's two programs terminate without fault and leave their arguments alone (the generated
  frame runs); the reference likewise (its generated run, the result dropped).  The idealization rewrote nothing.
-/
import proofs.«133430_j77129022701690_1_alg».proof.Defs
import proofs.«133430_j77129022701690_1_alg».proof.Proof.Gen.Kernel
import proofs.«133430_j77129022701690_1_alg».proof.Proof.Gen.Kernel.Skeleton
import proofs.«133430_j77129022701690_1_alg».proof.Proof.Gen.Kernel.Launch
import proofs.«133430_j77129022701690_1_alg».proof.Proof.Gen.Kernel.Points
import proofs.«133430_j77129022701690_1_alg».proof.Proof.Gen.Kernel.Frame
import proofs.«133430_j77129022701690_1_alg».proof.Proof.Gen.KernelIdeal
import proofs.«133430_j77129022701690_1_alg».proof.Proof.Gen.KernelIdeal.Skeleton
import proofs.«133430_j77129022701690_1_alg».proof.Proof.Gen.KernelIdeal.Launch
import proofs.«133430_j77129022701690_1_alg».proof.Proof.Gen.KernelIdeal.Points
import proofs.«133430_j77129022701690_1_alg».proof.Proof.Gen.KernelIdeal.Frame
import proofs.«133430_j77129022701690_1_alg».proof.Proof.Gen.ReferenceIdeal
import proofs.«133430_j77129022701690_1_alg».proof.Proof.Gen.ReferenceIdeal.Run
import proofs.«133430_j77129022701690_1_alg».proof.Proof.Gen.ReferenceIdeal.Read
import proofs.«133430_j77129022701690_1_alg».proof.Proof.Gen.Pre_finite_inputs
import proofs.«133430_j77129022701690_1_alg».proof.Proof.RefValue
import proofs.«133430_j77129022701690_1_alg».proof.Proof.Final
import Idealize.ShloMosaic.Adequacy
import Idealize.ShloMosaic.Init

noncomputable section

namespace Cert.Proof

open Idealize.ShloMosaic Idealize.SL.Sem Cert.ConfusionSums

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the score of the same three totals. -/
theorem algebraic : Cert.algebraic_KernelIdeal_ReferenceIdeal := by
  intro m ρ m' ρ' _ hagree
  refine ⟨fun c => score (Cert.KernelIdeal.Final.tot m hit c) (Cert.KernelIdeal.Final.tot m alarm c)
    (Cert.KernelIdeal.Final.tot m miss c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
